-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S32x8192 : Shape := ⟨2, ![32, 8192]⟩
abbrev S32x2048x128 : Shape := ⟨3, ![32, 2048, 128]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S32x2048x128 : S_.BroadcastsInDim S32x2048x128 (![] : Fin 0 → Fin S32x2048x128.rank)
  reducesTo_S32x2048x128_S_d0_1_2 : S32x2048x128.ReducesTo [0, 1, 2] S_
  bcast_S_S32x8192 : S_.BroadcastsInDim S32x8192 (![] : Fin 0 → Fin S32x8192.rank)
  reducesTo_S32x8192_S_d0_1 : S32x8192.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x8192x128 .f32) (main_arg1 : IVec S32x8192 32) (main_arg2 : FVec F S32x2048x128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  let main_v4 : FVec F S32x2048x128 .f32 := Host.absf main_arg2
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  let main_c_2 : IVec S_ 32 := constantI S_ 32 0#32
  let main_v9 : IVec S32x8192 32 := broadcastInDim S32x8192 ![] bcast_S_S32x8192 main_c_2
  let main_v10 : IVec S32x8192 1 := cmpi .sge main_arg1 main_v9
  let main_c_3 : IVec S_ 1 := constantI S_ 1 1#1
  let main_v11 : IVec S_ 1 := (fun x v => Host.reduce IntOp.andi x v reducesTo_S32x8192_S_d0_1 h_S_) main_v10 main_c_3
  let main_v12 : IVec S_ 1 := andi main_v8 main_v11
  let main_c_4 : IVec S_ 32 := constantI S_ 32 2048#32
  let main_v13 : IVec S32x8192 32 := broadcastInDim S32x8192 ![] bcast_S_S32x8192 main_c_4
  let main_v14 : IVec S32x8192 1 := cmpi .slt main_arg1 main_v13
  let main_c_5 : IVec S_ 1 := constantI S_ 1 1#1
  let main_v15 : IVec S_ 1 := (fun x v => Host.reduce IntOp.andi x v reducesTo_S32x8192_S_d0_1 h_S_) main_v14 main_c_5
  fn_part1 (F := F) main_v12 main_v15
-- ==== Kernel.lean ====
abbrev S32x8192x128 : Shape := ⟨3, ![32, 8192, 128]⟩
abbrev S32x8192 : Shape := ⟨2, ![32, 8192]⟩
abbrev S32x2048x128 : Shape := ⟨3, ![32, 2048, 128]⟩
abbrev S32x1x8192 : Shape := ⟨3, ![32, 1, 8192]⟩
abbrev S2048x1024 : Shape := ⟨2, ![2048, 1024]⟩
abbrev S1x1024x128 : Shape := ⟨3, ![1, 1024, 128]⟩
abbrev S1x1x1024 : Shape := ⟨3, ![1, 1, 1024]⟩
abbrev S1x2048x128 : Shape := ⟨3, ![1, 2048, 128]⟩
abbrev S2048x128 : Shape := ⟨2, ![2048, 128]⟩
abbrev S1x1024 : Shape := ⟨2, ![1, 1024]⟩
abbrev S1024x128 : Shape := ⟨2, ![1024, 128]⟩

abbrev nBuf : Space → Nat
  | .hbm => 6
  | .vmem => 7
  | .smem => 0
  | _ => 0

abbrev bufTy : (tb : Table) → Fin (tcTables nBuf tb) → BufTy
  | .hbm, ⟨0, _⟩ => ⟨S32x8192x128, .f32⟩
  | .hbm, ⟨1, _⟩ => ⟨S32x8192, .i32⟩
  | .hbm, ⟨2, _⟩ => ⟨S32x2048x128, .f32⟩
  | .hbm, ⟨3, _⟩ => ⟨S32x1x8192, .i32⟩
  | .hbm, ⟨4, _⟩ => ⟨S2048x1024, .i32⟩
  | .hbm, ⟨5, _⟩ => ⟨S32x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1x1024, .i32⟩
  | .local _ .vmem, ⟨3, _⟩ => ⟨S1x1x1024, .i32⟩
  | .local _ .vmem, ⟨4, _⟩ => ⟨S2048x1024, .i32⟩
  | .local _ .vmem, ⟨5, _⟩ => ⟨S1x2048x128, .f32⟩
  | .local _ .vmem, ⟨6, _⟩ => ⟨S1x2048x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32x8192_S32x1x8192 : S32x8192.ShapeCasts S32x1x8192
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  broadcasts_S1x1024_S2048x1024 : S1x1024.Broadcasts S2048x1024
  natLt_1_32 : 1 < 32
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x8192x128.size a
  hwx0_0 : ∀ i : grid0.Coords, EltTy.bits .f32 = 32 ∨ (Rect.block (s := S32x8192x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x8192.size a
  hwx0_1 : ∀ i : grid0.Coords, EltTy.bits .i32 = 32 ∨ (Rect.block (s := S32x1x8192) S1x1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .i32 = 32 ∨ (Rect.block (s := S2048x1024) S2048x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S32x2048x128.size a
  hwx0_3 : ∀ i : grid0.Coords, EltTy.bits .f32 = 32 ∨ (Rect.block (s := S32x2048x128) S1x2048x128.size (cc0_transform_3 i) (hinb0_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192x128 : Shape := ⟨3, ![32, 8192, 128]⟩
abbrev S32x8192 : Shape := ⟨2, ![32, 8192]⟩
abbrev S32x2048x128 : Shape := ⟨3, ![32, 2048, 128]⟩
abbrev S32 : Shape := ⟨1, ![32]⟩
abbrev S32x1 : Shape := ⟨2, ![32, 1]⟩
abbrev S_ : Shape := ⟨0, ![]⟩
abbrev S262144 : Shape := ⟨1, ![262144]⟩
abbrev S262144x128 : Shape := ⟨2, ![262144, 128]⟩
abbrev S65536x128 : Shape := ⟨2, ![65536, 128]⟩
abbrev S262144x1 : Shape := ⟨2, ![262144, 1]⟩

abbrev nBuf : Space → Nat
  | .hbm => 17
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S32x8192, .i32⟩
  | .hbm, ⟨2, _⟩ => ⟨S32x2048x128, .f32⟩
  | .hbm, ⟨3, _⟩ => ⟨S32, .i32⟩
  | .hbm, ⟨4, _⟩ => ⟨S32x1, .i32⟩
  | .hbm, ⟨5, _⟩ => ⟨S_, .i32⟩
  | .hbm, ⟨6, _⟩ => ⟨S32x1, .i32⟩
  | .hbm, ⟨7, _⟩ => ⟨S32x1, .i32⟩
  | .hbm, ⟨8, _⟩ => ⟨S32x8192, .i32⟩
  | .hbm, ⟨9, _⟩ => ⟨S32x8192, .i32⟩
  | .hbm, ⟨10, _⟩ => ⟨S262144, .i32⟩
  | .hbm, ⟨11, _⟩ => ⟨S262144x128, .f32⟩
  | .hbm, ⟨12, _⟩ => ⟨S_, .f32⟩
  | .hbm, ⟨13, _⟩ => ⟨S65536x128, .f32⟩
  | .hbm, ⟨14, _⟩ => ⟨S262144x1, .i32⟩
  | .hbm, ⟨15, _⟩ => ⟨S65536x128, .f32⟩
  | .hbm, ⟨16, _⟩ => ⟨S32x2048x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8192_0_1 : S32x1.BroadcastsInDim S32x8192 (![0, 1] : Fin 2 → Fin S32x8192.rank)
  shapeCasts_S32x8192_S262144 : S32x8192.ShapeCasts S262144
  shapeCasts_S32x8192x128_S262144x128 : S32x8192x128.ShapeCasts S262144x128
  bcast_S_S65536x128 : S_.BroadcastsInDim S65536x128 (![] : Fin 0 → Fin S65536x128.rank)
  bcast_S262144_S262144x1_0 : S262144.BroadcastsInDim S262144x1 (![0] : Fin 1 → Fin S262144x1.rank)
  shapeCasts_S65536x128_S32x2048x128 : S65536x128.ShapeCasts S32x2048x128
  scatter_S65536x128_S262144x1_S262144x128_1_0_0_1_wf : ScatterDims.WF S65536x128 S262144x1 S262144x128 [1] [0] [0] 1

variable [Facts₀]

def scatter_S65536x128_S262144x1_S262144x128_1_0_0_1 : ScatterDims S65536x128 S262144x1 S262144x128 where
  updateWindowDims := [1]
  insertedWindowDims := [0]
  scatterDimsToOperandDims := [0]
  indexVectorDim := 1
  wf := scatter_S65536x128_S262144x1_S262144x128_1_0_0_1_wf

class Facts : Prop extends Facts₀ where

variable [Facts]
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.Spec.lean ====
/-
  The function both programs compute, and the regrouping of its 8192 terms in eight tiles.

  For each batch element b, atom n and feature d,

      segSum msg tgt (b, n, d) = ∑ e < 8192, [tgt (b, e) = n] · msg (b, e, d):

  the messages of batch element b whose target index is the atom n, added up.  Sums of extended reals are commutative
  and associative, 0 · x = 0 and 1 · x = x for every extended real x, so no finiteness is needed anywhere below.
-/
import Idealize.ShloMosaic.Lib.ValueIdx
import proofs.«404894_j30726196036189_3_alg».proof.Proof.LibTileSum

noncomputable section

namespace Cert.SegSum

open Idealize.ShloMosaic Idealize.ShloMosaic.ValueIdx

abbrev SMsg : Shape := ⟨3, ![32, 8192, 128]⟩
abbrev STgt : Shape := ⟨2, ![32, 8192]⟩
abbrev SOut : Shape := ⟨3, ![32, 2048, 128]⟩

/-- The per-batch-element segment sum: at (b, n, d), the sum of the messages (b, e, d) over the edges e whose target
    index is the word n. -/
def segSum (msg : SMsg.Idx → EReal) (tgt : STgt.Idx → BitVec 32) : SOut.Idx → EReal := fun i =>
  ∑ e : Fin 8192, if tgt (ix2 (i 0) e) = BitVec.ofNat 32 (i 1).val then msg (ix3 (i 0) e (i 2)) else 0

/-- Eight tiles of 1024 edges are the 8192 edges. -/
theorem sum_tiles {M : Type*} [AddCommMonoid M] (H : ℕ → M) :
    ∑ s ∈ Finset.range 8, ∑ k : Fin 1024, H (1024 * s + k.val) = ∑ e : Fin 8192, H e.val :=
  Cert.Lib.sum_fin_tiles 1024 8 H

end Cert.SegSum

end
-- ==== Proof.KernelPayload.lean ====
/-
  One grid point's arithmetic, read at an index, at the ideal values.

  At grid point (b, s) the body compares the resident row-id table `ids` ([2048, 1024], entry (n, k) = n) with the
  tile of target indices `tg` ([1, 1, 1024]) broadcast down the rows, turns the comparison into a 0/1 matrix, multiplies
  it on the matrix unit with the tile of messages `ms` ([1, 1024, 128]) and adds the product to what the output block
  held.  Read at (n, d):

      new (n, d) = old (n, d) + ∑ k < 1024, [ids (n, k) = tg (k)] · ms (k, d).

  The two narrowings to bf16 are the identity on extended reals, and the 0/1 matrix entry is the integer 0 or 1 read as
  a real.
-/
import proofs.«404894_j30726196036189_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.SegSum.Kernel

open Cert.KernelIdeal Cert.KernelIdeal.Gen Idealize.ShloMosaic Idealize.ShloMosaic.ValueIdx

/-! ## The matrix product at an index -/

/-- The left operand's row coordinate is the output's row. -/
theorem lhs_row (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl

/-- The left operand's column coordinate is the contraction position. -/
theorem lhs_col (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q

/-- The right operand's row coordinate is the contraction position. -/
theorem rhs_row (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q

/-- The right operand's column coordinate is the output's column. -/
theorem rhs_col (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The [2048, 1024] × [1024, 128] product into a zero accumulator, at (n, d): the sum over the 1024 columns. -/
theorem matmul_at (L : FVec Ideal S2048x1024 .bf16) (R : FVec Ideal S1024x128 .bf16) (n : Fin 2048) (d : Fin 128) :
    matmul dot_S2048x1024_S1024x128_S2048x128_1_0_0_1_n_n none L R (constant S2048x128 .f32 0x00000000#32) (ix2 n d)
      = ∑ k : Fin 1024, L (ix2 n k) * R (ix2 k d) := by
  simp only [matmul]
  rw [Ideal.matmul_constant_zero_apply, ← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 n d) ((ValueIdx.contrEquiv1 dot_S2048x1024_S1024x128_S2048x128_1_0_0_1_n_n 1024 rfl rfl).symm k) = ix2 n k :=
    funext fun a => Fin.ext (by
      match a with
      | ⟨0, _⟩ => exact lhs_row _ _
      | ⟨1, _⟩ => exact (lhs_col _ _).trans hk)
  have er : dot_S2048x1024_S1024x128_S2048x128_1_0_0_1_n_n.rhsIdx (ix2 n d) ((ValueIdx.contrEquiv1 dot_S2048x1024_S1024x128_S2048x128_1_0_0_1_n_n 1024 rfl rfl).symm k) = ix2 k d :=
    funext fun a => Fin.ext (by
      match a with
      | ⟨0, _⟩ => exact (rhs_row _ _).trans hk
      | ⟨1, _⟩ => exact rhs_col _ _)
  rw [el, er]

/-! ## The 0/1 matrix entry -/

/-- A word comparison widened to 32 bits and read as a signed integer, then as a real: 1 where the words are equal, 0
    where they are not. -/
theorem indicator_eq (a b : BitVec 32) :
    ((((IntOp.cmpi .eq a b).setWidth 32).toInt : ℝ) : EReal) = if a = b then 1 else 0 := by
  by_cases h : a = b
  · rw [if_pos h, StableHlo.Predicate.cmpi_eq_iff.mpr h]
    have : ((1#1 : BitVec 1).setWidth 32).toInt = 1 := by decide
    rw [this]; norm_num
  · rw [if_neg h, eq_zero_of_ne_one (fun h1 => h (StableHlo.Predicate.cmpi_eq_iff.mp h1))]
    have : ((0#1 : BitVec 1).setWidth 32).toInt = 0 := by decide
    rw [this]; norm_num

/-! ## The stored value at an index -/

/-- What a grid point stores at (n, d) of the output block: what the block held there plus the point's 1024 terms. -/
theorem stored_at (tg : Vec Ideal S1x1x1024 .i32) (ids : Vec Ideal S2048x1024 .i32) (ms : Vec Ideal S1x1024x128 .f32)
    (old : Vec Ideal S1x2048x128 .f32) (u : Fin 1) (n : Fin 2048) (d : Fin 128) :
    k0_pay2 (F := Ideal) tg ids ms old (ix3 u n d)
      = old (ix3 (0 : Fin 1) n d)
        + ∑ k : Fin 1024, (if ids (ix2 n k) = tg (ix3 (0 : Fin 1) (0 : Fin 1) k) then (1 : EReal) else 0) * ms (ix3 (0 : Fin 1) k d) := by
  unfold k0_pay2
  rw [shapeCast_ab_1ab_apply, addf_apply, shapeCast_1ab_ab_apply, matmul_at]
  refine congrArg (old (ix3 (0 : Fin 1) n d) + ·) (Finset.sum_congr rfl fun k _ => ?_)
  rw [truncf_apply, truncf_apply, sitofp_apply, extui_apply, shapeCast_1ab_ab_apply]
  refine congrArg (· * ms (ix3 (0 : Fin 1) k d)) ?_
  show ((((IntOp.cmpi .eq (shapeCast S2048x1024 ids shapeCasts_S2048x1024_S2048x1024 (ix2 n k))
      (broadcastTo S2048x1024 (shapeCast S1x1024 tg shapeCasts_S1x1x1024_S1x1024) broadcasts_S1x1024_S2048x1024 (ix2 n k))).setWidth 32).toInt : ℝ) : EReal) = _
  rw [shapeCast_self, broadcastTo_1b_ab_apply, shapeCast_1ab_ab_apply]
  exact indicator_eq _ _

/-- The value the first point of a run stores before it accumulates: zero everywhere. -/
theorem cleared_at (i : S1x2048x128.Idx) : k0_pay1 (F := Ideal) i = 0 := by
  obtain ⟨u, n, d, rfl⟩ : ∃ (u : Fin 1) (n : Fin 2048) (d : Fin 128), i = ix3 u n d := ⟨i 0, i 1, i 2, eq_ix3 i⟩
  unfold k0_pay1
  rw [shapeCast_ab_1ab_apply, broadcast_apply]
  exact Ideal.ofBits_zero_f32

end Cert.SegSum.Kernel

end
-- ==== Proof.KernelBlocks.lean ====
/-
  The blocks a grid point reads, as entries of the argument arrays.

  The grid is 32 × 8; point t is batch element b = t / 8 and edge tile s = t % 8.  At it the message window holds rows
  1024·s … 1024·s + 1023 of batch element b, the target window holds the same stretch of that batch element's target
  indices (through the reshape [32, 8192] → [32, 1, 8192] the host does before the call), and the third window holds
  the whole row-id table, whose entry (n, k) is the word n (a host iota along the rows).
-/
import proofs.«404894_j30726196036189_3_alg».proof.Proof.Gen.KernelIdeal.Value
import proofs.«404894_j30726196036189_3_alg».proof.Proof.KernelPayload
import Idealize.ShloMosaic.Lib.StableHlo.Run

noncomputable section

namespace Cert.SegSum.Kernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- A natural number as a batch coordinate (taken modulo 32; used below 32 only). -/
abbrev batchOf (x : ℕ) : Fin 32 := ⟨x % 32, Nat.mod_lt x (by decide)⟩
/-- A natural number as an edge coordinate (taken modulo 8192; used below 8192 only). -/
abbrev edgeOf (x : ℕ) : Fin 8192 := ⟨x % 8192, Nat.mod_lt x (by decide)⟩

/-- The messages as launched. -/
abbrev msgArr (c : Dev nD) : S32x8192x128.Idx → EReal := m ((c : Thread nD τ).loc main_arg0)
/-- The target indices as launched. -/
abbrev tgtArr (c : Dev nD) : S32x8192.Idx → BitVec 32 := m ((c : Thread nD τ).loc main_arg1)

/-! ## What the region finds in the two arrays the host writes before it -/

/-- The reshaped target indices. -/
theorem V_main_v0 (c : Dev nD) :
    (V m c main_v0 : S32x1x8192.Idx → BitVec 32) = shapeCast S32x1x8192 (tgtArr m c) shapeCasts_S32x8192_S32x1x8192 := by
  dsimp only [V, hostOps0]; after_results <;> rfl

/-- The row-id table. -/
theorem V_main_v1 (c : Dev nD) :
    (V m c main_v1 : S2048x1024.Idx → BitVec 32) = iotaInDim S2048x1024 32 0 := by
  dsimp only [V, hostOps0]; after_results <;> rfl

/-- The reshape [32, 8192] → [32, 1, 8192] read at (b, 0, e). -/
theorem reshape_tgt_apply (x : S32x8192.Idx → BitVec 32) (b : Fin 32) (u : Fin 1) (e : Fin 8192) :
    shapeCast S32x1x8192 x shapeCasts_S32x8192_S32x1x8192 (ix3 b u e) = x (ix2 b e) :=
  shapeCast_apply x _ _ _ (by
    have hu : u.val = 0 := by omega
    rw [Shape.rowMajor_val_two, Shape.rowMajor_val_three]
    show b.val * 8192 + e.val = (b.val * 1 + u.val) * 8192 + e.val
    rw [hu, Nat.mul_one, Nat.add_zero])

/-! ## The printed index maps, decided over the grid -/

theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = t.val % 8
    ∧ win0_2.index t (0 : Fin 2) = 0 ∧ win0_2.index t (1 : Fin 2) = 0 :=
  (by decide +kernel : ∀ t : Fin grid0.N, _)

/-! ## The three input blocks at a point -/

/-- The message block at point t, entry (k, d): message 1024·(t % 8) + k of batch element t / 8, feature d. -/
theorem msg_block (c : Dev nD) (t : Fin cfg0.N) (k : Fin 1024) (d : Fin 128) :
    iblk m c 0 t (ix3 (0 : Fin 1) k d)
      = msgArr m c (ix3 (batchOf (t.val / 8)) (edgeOf (1024 * (t.val % 8) + k.val)) d) := by
  obtain ⟨e0, e1, e2, -⟩ := idx_facts t
  have hN : t.val < 256 := lt_of_lt_of_eq t.isLt N_0
  have hk : k.val < 1024 := k.isLt
  show V m c main_arg0 (((cfg0.win 0).blk t).view.emb (ix3 (0 : Fin 1) k d)) = _
  rw [V_main_arg0]
  refine congrArg _ (funext fun a => Fin.ext ?_)
  match a with
  | ⟨0, _⟩ => show win0_0.index t (0 : Fin 3) * 1 + 1 * 0 = (t.val / 8) % 32; omega
  | ⟨1, _⟩ => show win0_0.index t (1 : Fin 3) * 1024 + 1 * k.val = (1024 * (t.val % 8) + k.val) % 8192; omega
  | ⟨2, _⟩ => show win0_0.index t (2 : Fin 3) * 128 + 1 * d.val = d.val; omega

/-- The target block at point t, entry k: target index 1024·(t % 8) + k of batch element t / 8. -/
theorem tgt_block (c : Dev nD) (t : Fin cfg0.N) (k : Fin 1024) :
    iblk m c 1 t (ix3 (0 : Fin 1) (0 : Fin 1) k)
      = tgtArr m c (ix2 (batchOf (t.val / 8)) (edgeOf (1024 * (t.val % 8) + k.val))) := by
  obtain ⟨-, -, -, e0, e1, e2, -⟩ := idx_facts t
  have hN : t.val < 256 := lt_of_lt_of_eq t.isLt N_0
  have hk : k.val < 1024 := k.isLt
  show V m c main_v0 (((cfg0.win 1).blk t).view.emb (ix3 (0 : Fin 1) (0 : Fin 1) k)) = _
  have he : ((cfg0.win 1).blk t).view.emb (ix3 (0 : Fin 1) (0 : Fin 1) k)
      = ix3 (batchOf (t.val / 8)) (0 : Fin 1) (edgeOf (1024 * (t.val % 8) + k.val)) := by
    funext a; apply Fin.ext
    match a with
    | ⟨0, _⟩ => show win0_1.index t (0 : Fin 3) * 1 + 1 * 0 = (t.val / 8) % 32; omega
    | ⟨1, _⟩ => show win0_1.index t (1 : Fin 3) * 1 + 1 * 0 = 0; omega
    | ⟨2, _⟩ => show win0_1.index t (2 : Fin 3) * 1024 + 1 * k.val = (1024 * (t.val % 8) + k.val) % 8192; omega
  rw [he, V_main_v0, reshape_tgt_apply]

/-- The row-id block at any point, entry (n, k): the word n. -/
theorem ids_block (c : Dev nD) (t : Fin cfg0.N) (n : Fin 2048) (k : Fin 1024) :
    iblk m c 2 t (ix2 n k) = BitVec.ofNat 32 n.val := by
  obtain ⟨-, -, -, -, -, -, e0, e1⟩ := idx_facts t
  show V m c main_v1 (((cfg0.win 2).blk t).view.emb (ix2 n k)) = _
  rw [V_main_v1]
  show BitVec.ofNat 32 ((((cfg0.win 2).blk t).view.emb (ix2 n k)) 0).val = _
  refine congrArg _ ?_
  show win0_2.index t (0 : Fin 2) * 2048 + 1 * n.val = n.val
  omega

end Cert.SegSum.Kernel

end
-- ==== Proof.KernelValue.lean ====
/-
  The kernel's result array is the segment sum of its arguments.

  A run of the grid is the eight consecutive points 8·b … 8·b + 7 that share batch element b's output block: the first
  clears the block and adds its tile's terms, each later one adds its tile's terms to what the block held.  So after
  the run the block holds, at (n, d), the sum over the eight tiles s and the 1024 edges k of a tile of
  [n = tgt (b, 1024·s + k)] · msg (b, 1024·s + k, d) — the segment sum with its 8192 terms grouped in eight tiles.
-/
import proofs.«404894_j30726196036189_3_alg».proof.Proof.Spec
import proofs.«404894_j30726196036189_3_alg».proof.Proof.KernelBlocks

noncomputable section

namespace Cert.SegSum.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- What grid point p adds to the output block at index i = (·, n, d): its tile's 1024 terms. -/
def addend (msg : S32x8192x128.Idx → EReal) (tgt : S32x8192.Idx → BitVec 32) (p : ℕ) (i : S1x2048x128.Idx) : EReal :=
  ∑ k : Fin 1024,
    (if BitVec.ofNat 32 (i 1).val = tgt (ix2 (batchOf (p / 8)) (edgeOf (1024 * (p % 8) + k.val))) then (1 : EReal) else 0)
      * msg (ix3 (batchOf (p / 8)) (edgeOf (1024 * (p % 8) + k.val)) (i 2))

/-- A point's stored value over its own input blocks: what the block held plus the point's addend. -/
theorem point_stored (c : Dev nD) (t : Fin cfg0.N) (old : Vec Ideal S1x2048x128 .f32) (i : S1x2048x128.Idx) :
    k0_pay2 (F := Ideal) (iblk m c 1 t) (iblk m c 2 t) (iblk m c 0 t) old i
      = old i + addend (msgArr m c) (tgtArr m c) t.val i := by
  obtain ⟨u, n, d, rfl⟩ : ∃ (u : Fin 1) (n : Fin 2048) (d : Fin 128), i = ix3 u n d := ⟨i 0, i 1, i 2, eq_ix3 i⟩
  obtain rfl : u = 0 := Subsingleton.elim _ _
  refine (stored_at (iblk m c 1 t) (iblk m c 2 t) (iblk m c 0 t) old (0 : Fin 1) n d).trans ?_
  refine congrArg (old (ix3 (0 : Fin 1) n d) + ·) (Finset.sum_congr rfl fun k _ => ?_)
  rw [ids_block m c t n k, tgt_block m c t k, msg_block m c t k d]

/-- The first point of a run: the cleared block plus its addend. -/
theorem reset_at (c : Dev nD) (p : ℕ) (h : p < cfg0.N) (i : S1x2048x128.Idx) :
    Value.reset3 m c p h i = 0 + addend (msgArr m c) (tgtArr m c) p i := by
  unfold Value.reset3
  rw [point_stored m c ⟨p, h⟩ (k0_pay1 (F := Ideal)) i, cleared_at]

/-- A later point of a run: what the point before left plus its addend. -/
theorem step_at (c : Dev nD) (p : ℕ) (h : p < cfg0.N) (acc : S1x2048x128.Idx → EReal) (i : S1x2048x128.Idx) :
    Value.step3 m c p h acc i = acc i + addend (msgArr m c) (tgtArr m c) p i := by
  unfold Value.step3
  exact point_stored m c ⟨p, h⟩ acc i

/-- THE KERNEL'S RESULT: the array the run leaves is the segment sum of the messages by the target indices. -/
theorem result_eq (c : Dev nD) : Value.G3 (F := Ideal) m c = segSum (msgArr m c) (tgtArr m c) := by
  funext i
  obtain ⟨b, n, d, rfl⟩ : ∃ (b : Fin 32) (n : Fin 2048) (d : Fin 128), i = ix3 b n d := ⟨i 0, i 1, i 2, eq_ix3 i⟩
  have hb : b.val < 32 := b.isLt
  have hn : n.val < 2048 := n.isLt
  have hd : d.val < 128 := d.isLt
  have hrun : Value.run3Of (ix3 b n d) = b.val := by
    show 1 * (b.val / 1 - 0) + 1 * (n.val / 2048 - 0) + 1 * (d.val / 128 - 0) = b.val
    omega
  have hloc : Value.loc3Of (ix3 b n d) = ix3 (0 : Fin 1) n d := by
    funext a; apply Fin.ext
    match a with
    | ⟨0, _⟩ => show b.val % 1 = 0; omega
    | ⟨1, _⟩ => show n.val % 2048 = n.val; omega
    | ⟨2, _⟩ => show d.val % 128 = d.val; omega
  change @Eq EReal _ _
  unfold Value.G3
  have hN : cfg0.N = 256 := N_0
  rw [dif_pos (by rw [hrun, hN]; omega)]
  -- the run's fold, unrolled: zero plus the eight points' addends
  rw [Pipeline.accAt_add_apply (ι := S1x2048x128.Idx) (β := EReal) (Value.reset3 m c) (Value.step3 m c) (fun _ => 0)
    (addend (msgArr m c) (tgtArr m c)) (8 * Value.run3Of (ix3 b n d)) 7
    (fun h i => reset_at m c _ h i) (fun p h acc i _ _ => step_at m c p h acc i) 7 le_rfl _ (Value.loc3Of (ix3 b n d))]
  rw [hrun, hloc, zero_add]
  -- the eight tiles' terms are the 8192 edges' terms
  have hE : ∀ e : Fin 8192, edgeOf e.val = e := fun e => Fin.ext (Nat.mod_eq_of_lt e.isLt)
  let H : ℕ → EReal := fun x =>
    if tgtArr m c (ix2 b (edgeOf x)) = BitVec.ofNat 32 n.val then msgArr m c (ix3 b (edgeOf x) d) else 0
  have h1 : ∑ s ∈ Finset.range (7 + 1), addend (msgArr m c) (tgtArr m c) (8 * b.val + s) (ix3 (0 : Fin 1) n d)
      = ∑ s ∈ Finset.range 8, ∑ k : Fin 1024, H (1024 * s + k.val) := by
    refine Finset.sum_congr rfl fun s hs => ?_
    have hs8 : s < 8 := Finset.mem_range.mp hs
    have hq : batchOf ((8 * b.val + s) / 8) = b := Fin.ext (by show ((8 * b.val + s) / 8) % 32 = b.val; omega)
    have hr : (8 * b.val + s) % 8 = s := by omega
    unfold addend
    rw [hq, hr]
    exact Finset.sum_congr rfl fun k _ => Cert.Lib.indicator_mul eq_comm _
  rw [h1, sum_tiles (M := EReal) H]
  unfold segSum
  refine Finset.sum_congr rfl fun e _ => ?_
  show (if tgtArr m c (ix2 b (edgeOf e.val)) = BitVec.ofNat 32 n.val then msgArr m c (ix3 b (edgeOf e.val) d) else 0) = _
  rw [hE e]

end Cert.SegSum.Kernel

end
-- ==== Proof.RefScatter.lean ====
/-
  The reference's accumulating scatter: where an update lands.

  The scatter adds row k of the [262144, 128] updates into row idx (k) of the [65536, 128] operand, column by column:
  update (k, c) lands on (r, d) exactly when the k-th scatter index, read as a signed integer, is r, and c = d; an index
  outside [0, 65536) lands nowhere.
-/
import proofs.«404894_j30726196036189_3_alg».proof.Proof.Gen.ReferenceIdeal.Read
import Idealize.ShloMosaic.Lib.ValueIdx

noncomputable section

namespace Cert.SegSum.Reference

open Cert.ReferenceIdeal Cert.ReferenceIdeal.Gen Idealize.ShloMosaic Idealize.ShloMosaic.ValueIdx

/-- On the operand's row axis the window starts at the scatter index of the update's row. -/
theorem start_row (j : S262144x128.Idx) (idx : IVec S262144x1 32) :
    scatter_S65536x128_S262144x1_S262144x128_1_0_0_1.start j idx 0 = (idx (ix2 (j 0) (0 : Fin 1))).toInt := by
  unfold ScatterDims.start
  rw [dif_pos (show (0 : Fin S65536x128.rank) ∈ scatter_S65536x128_S262144x1_S262144x128_1_0_0_1.scatterDimsToOperandDims by decide)]
  refine congrArg (fun z => (idx z).toInt) (funext fun b => Fin.ext ?_)
  match b with
  | ⟨0, _⟩ => rfl
  | ⟨1, _⟩ => rfl

/-- On the operand's column axis the window starts at 0. -/
theorem start_col (j : S262144x128.Idx) (idx : IVec S262144x1 32) :
    scatter_S65536x128_S262144x1_S262144x128_1_0_0_1.start j idx 1 = 0 := by
  unfold ScatterDims.start
  rw [dif_neg (show ¬(1 : Fin S65536x128.rank) ∈ scatter_S65536x128_S262144x1_S262144x128_1_0_0_1.scatterDimsToOperandDims by decide)]

/-- The row axis is inserted: the window has no extent along it. -/
theorem window_row (j : S262144x128.Idx) : scatter_S65536x128_S262144x1_S262144x128_1_0_0_1.window j 0 = 0 := by
  unfold ScatterDims.window
  rw [dif_neg (show ¬(0 : Fin S65536x128.rank) ∈ scatter_S65536x128_S262144x1_S262144x128_1_0_0_1.sKept by decide)]

/-- Along the column axis the window coordinate is the update's column. -/
theorem window_col (j : S262144x128.Idx) : scatter_S65536x128_S262144x1_S262144x128_1_0_0_1.window j 1 = (j 1).val := by
  unfold ScatterDims.window
  rw [dif_pos (show (1 : Fin S65536x128.rank) ∈ scatter_S65536x128_S262144x1_S262144x128_1_0_0_1.sKept by decide)]
  rfl

/-- WHERE AN UPDATE LANDS: update (k, c) lands on (r, d) iff the k-th scatter index is r as a signed integer and c = d. -/
theorem lands_iff (idx : IVec S262144x1 32) (k : Fin 262144) (c : Fin 128) (r : Fin 65536) (d : Fin 128) :
    scatter_S65536x128_S262144x1_S262144x128_1_0_0_1.resultIdx? (ix2 k c) idx = some (ix2 r d)
      ↔ (idx (ix2 k (0 : Fin 1))).toInt = (r.val : ℤ) ∧ c = d := by
  have hs0 := start_row (ix2 k c) idx
  have hs1 := start_col (ix2 k c) idx
  have hw0 := window_row (ix2 k c)
  have hw1 : scatter_S65536x128_S262144x1_S262144x128_1_0_0_1.window (ix2 k c) 1 = c.val := window_col (ix2 k c)
  have hs0' : scatter_S65536x128_S262144x1_S262144x128_1_0_0_1.start (ix2 k c) idx 0 = (idx (ix2 k (0 : Fin 1))).toInt := hs0
  have hr : r.val < 65536 := r.isLt
  have hc : c.val < 128 := c.isLt
  have hd : d.val < 128 := d.isLt
  unfold ScatterDims.resultIdx?
  constructor
  · intro h
    split at h
    · rename_i hall
      have hf := Option.some.inj h
      have e0 : (scatter_S65536x128_S262144x1_S262144x128_1_0_0_1.start (ix2 k c) idx 0 + scatter_S65536x128_S262144x1_S262144x128_1_0_0_1.window (ix2 k c) 0).toNat = r.val :=
        congrArg (fun f : S65536x128.Idx => (f 0).val) hf
      have e1 : (scatter_S65536x128_S262144x1_S262144x128_1_0_0_1.start (ix2 k c) idx 1 + scatter_S65536x128_S262144x1_S262144x128_1_0_0_1.window (ix2 k c) 1).toNat = d.val :=
        congrArg (fun f : S65536x128.Idx => (f 1).val) hf
      have a0 := (hall 0).1
      rw [hs0', hw0] at e0 a0
      rw [hs1, hw1] at e1
      exact ⟨by omega, Fin.ext (by omega)⟩
    · exact absurd h (by simp)
  · rintro ⟨h0, rfl⟩
    have hall : ∀ a, 0 ≤ scatter_S65536x128_S262144x1_S262144x128_1_0_0_1.start (ix2 k c) idx a + scatter_S65536x128_S262144x1_S262144x128_1_0_0_1.window (ix2 k c) a
        ∧ scatter_S65536x128_S262144x1_S262144x128_1_0_0_1.start (ix2 k c) idx a + scatter_S65536x128_S262144x1_S262144x128_1_0_0_1.window (ix2 k c) a < S65536x128.size a := by
      intro a
      match a with
      | ⟨0, _⟩ =>
        show 0 ≤ scatter_S65536x128_S262144x1_S262144x128_1_0_0_1.start (ix2 k c) idx 0 + scatter_S65536x128_S262144x1_S262144x128_1_0_0_1.window (ix2 k c) 0
          ∧ scatter_S65536x128_S262144x1_S262144x128_1_0_0_1.start (ix2 k c) idx 0 + scatter_S65536x128_S262144x1_S262144x128_1_0_0_1.window (ix2 k c) 0 < (65536 : ℕ)
        rw [hs0', hw0, h0]; omega
      | ⟨1, _⟩ =>
        show 0 ≤ scatter_S65536x128_S262144x1_S262144x128_1_0_0_1.start (ix2 k c) idx 1 + scatter_S65536x128_S262144x1_S262144x128_1_0_0_1.window (ix2 k c) 1
          ∧ scatter_S65536x128_S262144x1_S262144x128_1_0_0_1.start (ix2 k c) idx 1 + scatter_S65536x128_S262144x1_S262144x128_1_0_0_1.window (ix2 k c) 1 < (128 : ℕ)
        rw [hs1, hw1]; omega
    rw [dif_pos hall]
    refine congrArg some (funext fun a => Fin.ext ?_)
    match a with
    | ⟨0, _⟩ =>
      show (scatter_S65536x128_S262144x1_S262144x128_1_0_0_1.start (ix2 k c) idx 0 + scatter_S65536x128_S262144x1_S262144x128_1_0_0_1.window (ix2 k c) 0).toNat = r.val
      rw [hs0', hw0, h0]; omega
    | ⟨1, _⟩ =>
      show (scatter_S65536x128_S262144x1_S262144x128_1_0_0_1.start (ix2 k c) idx 1 + scatter_S65536x128_S262144x1_S262144x128_1_0_0_1.window (ix2 k c) 1).toNat = c.val
      rw [hs1, hw1]; omega

end Cert.SegSum.Reference

end
-- ==== Proof.RefValue.lean ====
/-
  The reference's result array is the segment sum of its arguments, where every target index is an atom index.

  The reference flattens the batch: edge e of batch element b' becomes row k = 8192·b' + e of a [262144, 128] array of
  updates, its scatter index the word 2048·b' + tgt (b', e), and the updates are added into a zero [65536, 128] array
  whose row 2048·b + n is atom n of batch element b.  With 0 ≤ tgt (b', e) < 2048 the words do not wrap and
  2048·b' + tgt (b', e) = 2048·b + n exactly when b' = b and tgt (b', e) = n: the updates that land on row
  2048·b + n are the edges of batch element b whose target is n.
-/
import proofs.«404894_j30726196036189_3_alg».proof.Proof.Spec
import proofs.«404894_j30726196036189_3_alg».proof.Proof.RefScatter
import Idealize.ShloMosaic.Lib.StableHlo.Predicate
import Idealize.ShloMosaic.PureOps.Ideal.Laws

noncomputable section

namespace Cert.SegSum.Reference

open Cert.ReferenceIdeal Cert.ReferenceIdeal.Gen Cert.ReferenceIdeal.Read Idealize.ShloMosaic Idealize.ShloMosaic.ValueIdx

/-- The batch element of flattened row k. -/
abbrev rowBatch (k : Fin 262144) : Fin 32 := ⟨k.val / 8192, by have := k.isLt; omega⟩
/-- The edge of flattened row k. -/
abbrev rowEdge (k : Fin 262144) : Fin 8192 := ⟨k.val % 8192, Nat.mod_lt _ (by decide)⟩

/-- A 32-bit word is the word of a small number iff that number is its value. -/
theorem word_eq_iff (w : BitVec 32) (n : ℕ) (hn : n < 2 ^ 32) : w = BitVec.ofNat 32 n ↔ w.toNat = n := by
  constructor
  · intro h; rw [h, BitVec.toNat_ofNat, Nat.mod_eq_of_lt hn]
  · intro h; exact BitVec.eq_of_toNat_eq (by rw [BitVec.toNat_ofNat, Nat.mod_eq_of_lt hn, h])

/-- The batch offset 2048·A plus a target index below 2048, in 32-bit words, read signed: no wrap. -/
theorem offset_toInt (A : ℕ) (hA : A < 32) (w : BitVec 32) (hw : w.toNat < 2048) :
    (IntOp.addi (IntOp.muli (BitVec.ofNat 32 A) 2048#32) w).toInt = ((A * 2048 + w.toNat : ℕ) : ℤ) := by
  have hv : (IntOp.addi (IntOp.muli (BitVec.ofNat 32 A) 2048#32) w).toNat = A * 2048 + w.toNat := by
    show (BitVec.ofNat 32 A * 2048#32 + w).toNat = _
    rw [BitVec.toNat_add, BitVec.toNat_mul, BitVec.toNat_ofNat]
    show (A % 2 ^ 32 * 2048 % 2 ^ 32 + w.toNat) % 2 ^ 32 = _
    omega
  rw [StableHlo.Predicate.toInt_eq_toNat_of_lt (by rw [hv]; omega), hv]

variable (x0 : S32x8192x128.Idx → EReal) (x1 : S32x8192.Idx → BitVec 32)

/-- The scatter index of flattened row k. -/
theorem scatter_index (hx1 : ∀ p, (x1 p).toNat < 2048) (k : Fin 262144) :
    (val_main_v9 (F := Ideal) x1 (ix2 k (0 : Fin 1))).toInt
      = ((k.val / 8192 * 2048 + (x1 (ix2 (rowBatch k) (rowEdge k))).toNat : ℕ) : ℤ) := by
  have hk := k.isLt
  rw [val_main_v9_apply, val_main_v6_apply, val_main_v5_apply, val_main_v4_apply, val_main_v3_apply, val_main_v1_apply,
    val_main_v2_apply, val_main_v0_apply, val_main_c_apply]
  have hi : idx_main_v6 (idx_main_v9 (ix2 k (0 : Fin 1))) = ix2 (rowBatch k) (rowEdge k) := by
    funext a; match a with | ⟨0, _⟩ => rfl | ⟨1, _⟩ => rfl
  rw [hi]
  exact offset_toInt (k.val / 8192) (by omega) _ (hx1 _)

/-- The update of flattened row k, column d: the message of that row's batch element and edge. -/
theorem update_row (k : Fin 262144) (d : Fin 128) :
    val_main_v7 (F := Ideal) x0 (ix2 k d) = x0 (ix3 (rowBatch k) (rowEdge k) d) := by
  have hk := k.isLt
  have hd := d.isLt
  rw [val_main_v7_apply]
  refine congrArg x0 (funext fun a => Fin.ext ?_)
  match a with
  | ⟨0, _⟩ => show (k.val * 128 + d.val) / 1048576 = k.val / 8192; omega
  | ⟨1, _⟩ => show (k.val * 128 + d.val) / 128 % 8192 = k.val % 8192; omega
  | ⟨2, _⟩ => show (k.val * 128 + d.val) % 128 = d.val; omega

/-- WHICH UPDATES LAND ON ATOM n OF BATCH ELEMENT b, FEATURE d: those of the rows of batch element b whose target is n,
    in column d. -/
theorem lands_on_atom_iff (hx1 : ∀ p, (x1 p).toNat < 2048) (b : Fin 32) (n : Fin 2048) (d : Fin 128)
    (k : Fin 262144) (c : Fin 128) (hr : b.val * 2048 + n.val < 65536) :
    scatter_S65536x128_S262144x1_S262144x128_1_0_0_1.resultIdx? (ix2 k c) (val_main_v9 (F := Ideal) x1) = some (ix2 (⟨b.val * 2048 + n.val, hr⟩ : Fin 65536) d)
      ↔ k.val / 8192 = b.val ∧ (x1 (ix2 (rowBatch k) (rowEdge k))).toNat = n.val ∧ c = d := by
  have hw := hx1 (ix2 (rowBatch k) (rowEdge k))
  have hn := n.isLt
  rw [lands_iff, scatter_index x1 hx1]
  constructor
  · rintro ⟨h, rfl⟩
    have h' : ((k.val / 8192 * 2048 + (x1 (ix2 (rowBatch k) (rowEdge k))).toNat : ℕ) : ℤ) = ((b.val * 2048 + n.val : ℕ) : ℤ) := h
    exact ⟨by omega, by omega, rfl⟩
  · rintro ⟨h1, h2, rfl⟩
    refine ⟨?_, rfl⟩
    show ((k.val / 8192 * 2048 + (x1 (ix2 (rowBatch k) (rowEdge k))).toNat : ℕ) : ℤ) = ((b.val * 2048 + n.val : ℕ) : ℤ)
    rw [h1, h2]

/-- THE REFERENCE'S RESULT: under the index range, its result array is the segment sum. -/
theorem result_eq (hx1 : ∀ p, (x1 p).toNat < 2048) : val_main_v11 (F := Ideal) x0 x1 = segSum x0 x1 := by
  funext i
  obtain ⟨b, n, d, rfl⟩ : ∃ (b : Fin 32) (n : Fin 2048) (d : Fin 128), i = ix3 b n d := ⟨i 0, i 1, i 2, eq_ix3 i⟩
  have hb : b.val < 32 := b.isLt
  have hn : n.val < 2048 := n.isLt
  have hd : d.val < 128 := d.isLt
  have hr : b.val * 2048 + n.val < 65536 := by omega
  rw [val_main_v11_apply]
  have hi : idx_main_v11 (ix3 b n d) = ix2 (⟨b.val * 2048 + n.val, hr⟩ : Fin 65536) d := by
    funext a; apply Fin.ext
    match a with
    | ⟨0, _⟩ => show ((b.val * 2048 + n.val) * 128 + d.val) / 128 = b.val * 2048 + n.val; omega
    | ⟨1, _⟩ => show ((b.val * 2048 + n.val) * 128 + d.val) % 128 = d.val; omega
  rw [hi]
  -- the scatter at an element: the (zero) operand plus the updates that land there
  show Ideal.hostScatterAdd scatter_S65536x128_S262144x1_S262144x128_1_0_0_1 (val_main_v8 (F := Ideal)) (val_main_v9 (F := Ideal) x1)
      (val_main_v7 (F := Ideal) x0) (ix2 (⟨b.val * 2048 + n.val, hr⟩ : Fin 65536) d) = _
  unfold Ideal.hostScatterAdd
  rw [val_main_v8_apply, val_main_cst_apply]
  show Ideal.ofBits .f32 0x00000000#32 + _ = _
  rw [Ideal.ofBits_zero_f32, zero_add]
  unfold segSum
  rw [← Finset.sum_filter]
  show ∑ j ∈ Finset.univ.filter (fun j : S262144x128.Idx =>
        scatter_S65536x128_S262144x1_S262144x128_1_0_0_1.resultIdx? j (val_main_v9 (F := Ideal) x1) = some (ix2 (⟨b.val * 2048 + n.val, hr⟩ : Fin 65536) d)),
      val_main_v7 (F := Ideal) x0 j
    = ∑ e ∈ Finset.univ.filter (fun e : Fin 8192 => x1 (ix2 b e) = BitVec.ofNat 32 n.val), x0 (ix3 b e d)
  -- the landing updates are, one for one, the edges of batch element b whose target is n
  have hmem : ∀ (k : Fin 262144) (c : Fin 128),
      ix2 k c ∈ Finset.univ.filter (fun j : S262144x128.Idx =>
        scatter_S65536x128_S262144x1_S262144x128_1_0_0_1.resultIdx? j (val_main_v9 (F := Ideal) x1) = some (ix2 (⟨b.val * 2048 + n.val, hr⟩ : Fin 65536) d))
      ↔ k.val / 8192 = b.val ∧ (x1 (ix2 (rowBatch k) (rowEdge k))).toNat = n.val ∧ c = d := fun k c =>
    Finset.mem_filter.trans ((and_iff_right (Finset.mem_univ _)).trans (lands_on_atom_iff x1 hx1 b n d k c hr))
  have hedge : ∀ e : Fin 8192,
      e ∈ Finset.univ.filter (fun e : Fin 8192 => x1 (ix2 b e) = BitVec.ofNat 32 n.val) ↔ (x1 (ix2 b e)).toNat = n.val := fun e =>
    Finset.mem_filter.trans ((and_iff_right (Finset.mem_univ _)).trans (word_eq_iff _ _ (by omega)))
  refine Finset.sum_nbij' (fun j : S262144x128.Idx => rowEdge (j 0))
    (fun e : Fin 8192 => ix2 (⟨b.val * 8192 + e.val, by have := e.isLt; omega⟩ : Fin 262144) d) ?_ ?_ ?_ ?_ ?_
  · intro j hj
    obtain ⟨k, c, rfl⟩ : ∃ (k : Fin 262144) (c : Fin 128), j = ix2 k c := ⟨j 0, j 1, eq_ix2 j⟩
    obtain ⟨h1, h2, -⟩ := (hmem k c).mp hj
    have hbk : rowBatch k = b := Fin.ext h1
    rw [hbk] at h2
    exact (hedge (rowEdge k)).mpr h2
  · intro e he
    have he' := (hedge e).mp he
    have hel := e.isLt
    have h1 : rowBatch (⟨b.val * 8192 + e.val, by omega⟩ : Fin 262144) = b :=
      Fin.ext (by show (b.val * 8192 + e.val) / 8192 = b.val; omega)
    have h2 : rowEdge (⟨b.val * 8192 + e.val, by omega⟩ : Fin 262144) = e :=
      Fin.ext (by show (b.val * 8192 + e.val) % 8192 = e.val; omega)
    refine (hmem _ d).mpr ⟨?_, ?_, rfl⟩
    · show (b.val * 8192 + e.val) / 8192 = b.val; omega
    · rw [h1, h2]; exact he'
  · intro j hj
    obtain ⟨k, c, rfl⟩ : ∃ (k : Fin 262144) (c : Fin 128), j = ix2 k c := ⟨j 0, j 1, eq_ix2 j⟩
    obtain ⟨h1, -, h3⟩ := (hmem k c).mp hj
    have hk := k.isLt
    refine congrArg₂ ix2 (Fin.ext ?_) h3.symm
    show b.val * 8192 + k.val % 8192 = k.val
    omega
  · intro e _
    have hel := e.isLt
    exact Fin.ext (by show (b.val * 8192 + e.val) % 8192 = e.val; omega)
  · intro j hj
    obtain ⟨k, c, rfl⟩ : ∃ (k : Fin 262144) (c : Fin 128), j = ix2 k c := ⟨j 0, j 1, eq_ix2 j⟩
    obtain ⟨h1, -, h3⟩ := (hmem k c).mp hj
    have hbk : rowBatch k = b := Fin.ext h1
    refine (update_row x0 k c).trans ?_
    show x0 (ix3 (rowBatch k) (rowEdge k) c) = x0 (ix3 b (rowEdge k) d)
    rw [hbk, h3]

end Cert.SegSum.Reference

end
-- ==== Proof.PreRange.lean ====
/-
  What the precondition says of the target indices: every one of them is an atom index, 0 ≤ tgt < 2048.

  The precondition is a conjunction of four `jnp.all`s; the last two compare every target index, signed, with 0 from
  above and with 2048 from below.  A signed word in [0, 2048) has that value unsigned too.
-/
import proofs.«404894_j30726196036189_3_alg».proof.Proof.Gen.Pre_finite_inputs
import Idealize.ShloMosaic.Lib.ReduceAll
import Idealize.ShloMosaic.Lib.Affine
import Idealize.ShloMosaic.Lib.ValueIdx

noncomputable section

namespace Cert.SegSum

open Idealize.ShloMosaic Cert.Pre_finite_inputs

instance : Subsingleton Cert.Pre_finite_inputs.S_.Idx := ⟨fun _ _ => funext fun d => d.elim0⟩

/-- A 32-bit word that is at least 0 and below 2048 as a signed integer is below 2048 as a natural number. -/
theorem toNat_lt_of_signed (w : BitVec 32) (h0 : (0#32 : BitVec 32).toInt ≤ w.toInt) (h1 : w.toInt < (2048#32 : BitVec 32).toInt) :
    w.toNat < 2048 := by
  have e0 : (0#32 : BitVec 32).toInt = 0 := by decide
  have e1 : (2048#32 : BitVec 32).toInt = 2048 := by decide
  rw [e0] at h0
  rw [e1] at h1
  rw [BitVec.toInt_eq_toNat_cond] at h0 h1
  split_ifs at h0 h1 <;> omega

/-- THE INDEX RANGE: where the precondition holds, every target index is below 2048 as a natural number. -/
theorem tgt_range {F : FTy → Type} [FloatOps F] (a0 : FVec F S32x8192x128 .f32) (a1 : IVec S32x8192 32)
    (a2 : FVec F S32x2048x128 .f32) (h : Cert.Pre_finite_inputs.fn (F := F) a0 a1 a2 = fun _ => 1#1) :
    ∀ p : S32x8192.Idx, (a1 p).toNat < 2048 := by
  intro p
  have h0 := congrFun h ValueIdx.ix0
  dsimp only [fn, fn_part1] at h0
  obtain ⟨h12, h15⟩ := IntOp.andi_eq_one.mp h0
  obtain ⟨-, h11⟩ := IntOp.andi_eq_one.mp h12
  have hge := Host.reduce_andi_all _ _ _ _ _ h11 p
  have hlt := Host.reduce_andi_all _ _ _ _ _ h15 p
  exact toNat_lt_of_signed (a1 p) (IntOp.cmpi_sge.mp hge) (IntOp.cmpi_slt.mp hlt)

end Cert.SegSum

end
-- ==== Proof.lean ====
/-
  The certificate's claim: a scatter-add of edge messages to target atoms, per batch element.

  Kernel: for each batch element b the grid sweeps eight tiles of 1024 edges; a tile's contribution to the [2048, 128]
  output block is the product of a 0/1 matrix — entry (n, k) is 1 where edge k of the tile targets atom n — with the
  tile's [1024, 128] messages, added to what the block held (the first tile of a sweep clears the block first).
  Reference: one flat segment sum over the offset indices 2048·b + tgt (b, e), into 32·2048 segments.

  Both compute, at (b, n, d), the sum of msg (b, e, d) over the edges e of batch element b with tgt (b, e) = n
  (`Cert.SegSum.segSum`): the kernel with the 8192 terms grouped in eight tiles (KernelValue.lean, over the generated
  fold of the eight points of a sweep), the reference because, for target indices in [0, 2048), the offset index
  2048·b' + tgt (b', e) equals 2048·b + n only for b' = b and tgt (b', e) = n (RefValue.lean).  Sums of extended reals
  are commutative and associative and the 0/1 factors multiply exactly, so finiteness of the messages is not used; the
  range of the target indices is, and the precondition states it (PreRange.lean).  Outside that range the two programs
  differ: the kernel drops such an edge, the reference adds it to an atom of another batch element.

  The three frames are the generated runs with their results dropped; the idealization rewrote nothing, so
  `preserves` is trivial.
-/
import proofs.«404894_j30726196036189_3_alg».proof.Defs
import proofs.«404894_j30726196036189_3_alg».proof.Proof.Gen.Kernel.Frame
import proofs.«404894_j30726196036189_3_alg».proof.Proof.Gen.KernelIdeal.Value
import proofs.«404894_j30726196036189_3_alg».proof.Proof.Gen.Pre_finite_inputs
import proofs.«404894_j30726196036189_3_alg».proof.Proof.Gen.ReferenceIdeal.Run
import proofs.«404894_j30726196036189_3_alg».proof.Proof.Gen.ReferenceIdeal.Read
import proofs.«404894_j30726196036189_3_alg».proof.Proof.KernelValue
import proofs.«404894_j30726196036189_3_alg».proof.Proof.RefValue
import proofs.«404894_j30726196036189_3_alg».proof.Proof.PreRange
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both result arrays are the segment sum of the (agreeing) messages and target indices. -/
theorem algebraic_KernelIdeal_ReferenceIdeal : algebraic_KernelIdeal_ReferenceIdeal := by
  intro m ρ m' ρ' hpre hagree
  refine ⟨fun c => Cert.SegSum.segSum (Cert.SegSum.Kernel.msgArr m c) (Cert.SegSum.Kernel.tgtArr m c), ?_, ?_⟩
  · exact (θ_run Cert.KernelIdeal.defs _ _).mono
      (fun r h c => ⟨(h c).1.trans (Cert.SegSum.Kernel.result_eq m c), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v11_eq, (hagree c).1, (hagree c).2.1]
    exact Cert.SegSum.Reference.result_eq _ _ (Cert.SegSum.tgt_range _ _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
